-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_arg4 : FVec F S16x4096 .f32) (main_arg5 : FVec F S4096x16 .f32) (main_arg6 : FVec F S16x4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  let main_v24 : FVec F S4096x16 .f32 := Host.absf main_arg5
  let main_cst_8 : FVec F S_ .f32 := constant S_ .f32 0x7F800000#32
  let main_v25 : FVec F S4096x16 .f32 := broadcastInDim S4096x16 ![] bcast_S_S4096x16 main_cst_8
  let main_v26 : IVec S4096x16 1 := cmpf .olt main_v24 main_v25
  let main_c_9 : IVec S_ 1 := constantI S_ 1 1#1
  let main_v27 : IVec S_ 1 := (fun x v => Host.reduce IntOp.andi x v reducesTo_S4096x16_S_d0_1 h_S_) main_v26 main_c_9
  let main_v28 : IVec S_ 1 := andi main_v23 main_v27
  let main_v29 : FVec F S16x4096 .f32 := Host.absf main_arg6
  let main_cst_10 : FVec F S_ .f32 := constant S_ .f32 0x7F800000#32
  let main_v30 : FVec F S16x4096 .f32 := broadcastInDim S16x4096 ![] bcast_S_S16x4096 main_cst_10
  let main_v31 : IVec S16x4096 1 := cmpf .olt main_v29 main_v30
  let main_c_11 : IVec S_ 1 := constantI S_ 1 1#1
  let main_v32 : IVec S_ 1 := (fun x v => Host.reduce IntOp.andi x v reducesTo_S16x4096_S_d0_1 h_S_) main_v31 main_c_11
  let main_v33 : IVec S_ 1 := andi main_v28 main_v32
  main_v33

def fn {F : FTy → Type} [FloatOps F] (main_arg0 : FVec F S8x2048x4096 .f32) (main_arg1 : FVec F S4096x4096 .f32) (main_arg2 : FVec F S4096 .f32) (main_arg3 : FVec F S4096x16 .f32) (main_arg4 : FVec F S16x4096 .f32) (main_arg5 : FVec F S4096x16 .f32) (main_arg6 : FVec F S16x4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_arg5 main_arg6 main_v13 main_v16
-- ==== Kernel.lean ====
abbrev S8x2048x4096 : Shape := ⟨3, ![8, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S16384x4096 : Shape := ⟨2, ![16384, 4096]⟩
abbrev S1x4096 : Shape := ⟨2, ![1, 4096]⟩
abbrev S1024x512 : Shape := ⟨2, ![1024, 512]⟩
abbrev S512x1024 : Shape := ⟨2, ![512, 1024]⟩
abbrev S512x16 : Shape := ⟨2, ![512, 16]⟩
abbrev S16x1024 : Shape := ⟨2, ![16, 1024]⟩
abbrev S1x1024 : Shape := ⟨2, ![1, 1024]⟩
abbrev S1024x1024 : Shape := ⟨2, ![1024, 1024]⟩

abbrev nBuf : Space → Nat
  | .hbm => 11
  | .vmem => 17
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S4096x16, .f32⟩
  | .hbm, ⟨6, _⟩ => ⟨S16x4096, .f32⟩
  | .hbm, ⟨7, _⟩ => ⟨S16384x4096, .f32⟩
  | .hbm, ⟨8, _⟩ => ⟨S1x4096, .f32⟩
  | .hbm, ⟨9, _⟩ => ⟨S16384x4096, .f32⟩
  | .hbm, ⟨10, _⟩ => ⟨S8x2048x4096, .f32⟩
  | .local _ .vmem, ⟨0, _⟩ => ⟨S1024x512, .f32⟩
  | .local _ .vmem, ⟨1, _⟩ => ⟨S1024x512, .f32⟩
  | .local _ .vmem, ⟨2, _⟩ => ⟨S512x1024, .f32⟩
  | .local _ .vmem, ⟨3, _⟩ => ⟨S512x1024, .f32⟩
  | .local _ .vmem, ⟨4, _⟩ => ⟨S512x16, .f32⟩
  | .local _ .vmem, ⟨5, _⟩ => ⟨S512x16, .f32⟩
  | .local _ .vmem, ⟨6, _⟩ => ⟨S16x1024, .f32⟩
  | .local _ .vmem, ⟨7, _⟩ => ⟨S16x1024, .f32⟩
  | .local _ .vmem, ⟨8, _⟩ => ⟨S512x16, .f32⟩
  | .local _ .vmem, ⟨9, _⟩ => ⟨S512x16, .f32⟩
  | .local _ .vmem, ⟨10, _⟩ => ⟨S16x1024, .f32⟩
  | .local _ .vmem, ⟨11, _⟩ => ⟨S16x1024, .f32⟩
  | .local _ .vmem, ⟨12, _⟩ => ⟨S1x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![16, 4, 8], ![false, false, false]⟩

def k0_cond2 (i : grid0.Coords) : BitVec 1 :=
  let arg2 : BitVec 32 := BitVec.ofNat 32 (i 2).val
  let c7_i32 : BitVec 32 := 7#32
  let v26 : BitVec 1 := Scalar.cmpi .eq arg2 c7_i32
  let v27 : BitVec 32 := Scalar.extui v26
  let c0_i32_20 : BitVec 32 := 0#32
  let v28 : BitVec 1 := Scalar.cmpi .ne v27 c0_i32_20
  v28

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

class Facts₀ : Prop where
  shapeCasts_S8x2048x4096_S16384x4096 : S8x2048x4096.ShapeCasts S16384x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x16_S512x16_0_0 : ∀ a, (![0, 0] : Fin 2 → Nat) a + S512x16.size a ≤ S512x16.size a
  h_S512x16 : 0 < S512x16.numel
  inb_S16x1024_S16x1024_0_0 : ∀ a, (![0, 0] : Fin 2 → Nat) a + S16x1024.size a ≤ S16x1024.size a
  h_S16x1024 : 0 < S16x1024.numel
  inb_S512x1024_S512x1024_0_0 : ∀ a, (![0, 0] : Fin 2 → Nat) a + S512x1024.size a ≤ S512x1024.size a
  h_S512x1024 : 0 < S512x1024.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S16384x4096_S8x2048x4096 : S16384x4096.ShapeCasts S8x2048x4096
  dot_S512x16_S16x1024_S512x1024_1_0_0_1_n_n_wf : DotDims.WF S512x16 S16x1024 S512x1024 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x4096.size a
  hwx0_0 : ∀ i : grid0.Coords, EltTy.bits .f32 = 32 ∨ (Rect.block (s := S16384x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x16.size a ≤ S4096x16.size a
  hwx0_2 : ∀ i : grid0.Coords, EltTy.bits .f32 = 32 ∨ (Rect.block (s := S4096x16) S512x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S16x4096.size a
  hwx0_3 : ∀ i : grid0.Coords, EltTy.bits .f32 = 32 ∨ (Rect.block (s := S16x4096) S16x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x16.size a ≤ S4096x16.size a
  hwx0_4 : ∀ i : grid0.Coords, EltTy.bits .f32 = 32 ∨ (Rect.block (s := S4096x16) S512x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x1024.size a ≤ S16x4096.size a
  hwx0_5 : ∀ i : grid0.Coords, EltTy.bits .f32 = 32 ∨ (Rect.block (s := S16x4096) S16x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x4096.size a
  hwx0_6 : ∀ i : grid0.Coords, EltTy.bits .f32 = 32 ∨ (Rect.block (s := S1x4096) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S16384x4096.size a
  hwx0_7 : ∀ i : grid0.Coords, EltTy.bits .f32 = 32 ∨ (Rect.block (s := S16384x4096) S1024x1024.size (cc0_transform_7 i) (hinb0_7 i)).WholeWords (EltTy.packing .f32)

variable [Facts₀]

def dot_S512x16_S16x1024_S512x1024_1_0_0_1_n_n : DotDims S512x16 S16x1024 S512x1024 where
  lhsContracting := [1]
  rhsContracting := [0]
  lhsNonContracting := [0]
  rhsNonContracting := [1]
  lhsBatch := []
  rhsBatch := []
  wf := dot_S512x16_S16x1024_S512x1024_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S16x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S512x16.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S16x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S_ : Shape := ⟨0, ![]⟩
abbrev S1x1x4096 : Shape := ⟨3, ![1, 1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S4096x16, .f32⟩
  | .hbm, ⟨6, _⟩ => ⟨S16x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S8x2048x4096, .f32⟩
  | .hbm, ⟨18, _⟩ => ⟨S1x1x4096, .f32⟩
  | .hbm, ⟨19, _⟩ => ⟨S8x2048x4096, .f32⟩
  | .hbm, ⟨20, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  dot_S4096x16_S16x4096_S4096x4096_1_0_0_1_n_n_wf : DotDims.WF S4096x16 S16x4096 S4096x4096 [1] [0] [0] [1] [] []
  dot_S8x2048x4096_S4096x4096_S8x2048x4096_2_0_01_1_n_n_wf : DotDims.WF S8x2048x4096 S4096x4096 S8x2048x4096 [2] [0] [0, 1] [1] [] []

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S8x2048x4096_S4096x4096_S8x2048x4096_2_0_01_1_n_n : DotDims S8x2048x4096 S4096x4096 S8x2048x4096 where
  lhsContracting := [2]
  rhsContracting := [0]
  lhsNonContracting := [0, 1]
  rhsNonContracting := [1]
  lhsBatch := []
  rhsBatch := []
  wf := dot_S8x2048x4096_S4096x4096_S8x2048x4096_2_0_01_1_n_n_wf

class Facts : Prop extends Facts₀ where

variable [Facts]
-- ==== Proof.Spec.lean ====
/-
  The mathematics of the equivalence, with no program in sight.

  A dense layer with a low-rank Hadamard adapter:  out[b, s, e] = (∑_d x[b, s, d] · K[d, e]) + bias[e]  with the
  adapted weight  K[d, e] = W[d, e] + (σ · ∑_r a0[d, r] · b0[r, e]) · (σ · ∑_r a1[d, r] · b1[r, e])  (σ the float word of
  1/16, the same word in both programs, never evaluated).  One program contracts the 4096 input features at once;
  the other walks them in 8 consecutive tiles of 512, adding each tile's partial product to a running total that
  starts at zero.  On the extended reals addition is commutative and associative (an additive commutative monoid:
  no cancellation, no distributivity is asked), so the sum over 4096 IS the sum over the 8 tiles of the sums over
  each tile's 512 (`sum_tiles`), whatever the entries are — finite or not.

  Arrays are read here at NATURAL-NUMBER coordinates (`at2`: the entry when the coordinates are in range, 0
  outside, which no statement below ever consults): a tile's entry (p, d) is then the array's entry
  (1024·i + p, 512·k + d) with plain arithmetic in the coordinates.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

open scoped BigOperators

namespace Cert.LoHa

open Idealize.ShloMosaic Idealize.ShloMosaic.ValueIdx

/-- The adapter's scale: the float word of 1/16, kept as its word. -/
abbrev scale : EReal := Ideal.ofBits .f32 0x3D800000#32

/-- A rank-2 array read at natural-number coordinates (0 outside its extents). -/
def at2 {n0 n1 : Nat} (A : FVec Ideal ⟨2, ![n0, n1]⟩ .f32) (r c : ℕ) : EReal :=
  if h : r < n0 ∧ c < n1 then A (ix2 ⟨r, h.1⟩ ⟨c, h.2⟩) else 0

theorem at2_ix2 {n0 n1 : Nat} (A : FVec Ideal ⟨2, ![n0, n1]⟩ .f32) (r : Fin n0) (c : Fin n1) :
    at2 A r.val c.val = A (ix2 r c) := by
  unfold at2
  rw [dif_pos ⟨r.isLt, c.isLt⟩]

theorem at2_of_lt {n0 n1 : Nat} (A : FVec Ideal ⟨2, ![n0, n1]⟩ .f32) (r c : ℕ) (hr : r < n0) (hc : c < n1) :
    at2 A r c = A (ix2 ⟨r, hr⟩ ⟨c, hc⟩) := by
  unfold at2
  rw [dif_pos ⟨hr, hc⟩]

/-- Entry (d, e) of the adapted weight: the base weight plus the product of the two scaled rank-16 factors. -/
def kern (W : FVec Ideal ⟨2, ![4096, 4096]⟩ .f32) (a0 : FVec Ideal ⟨2, ![4096, 16]⟩ .f32)
    (b0 : FVec Ideal ⟨2, ![16, 4096]⟩ .f32) (a1 : FVec Ideal ⟨2, ![4096, 16]⟩ .f32)
    (b1 : FVec Ideal ⟨2, ![16, 4096]⟩ .f32) (d e : ℕ) : EReal :=
  at2 W d e + (scale * ∑ r : Fin 16, at2 a0 d r.val * at2 b0 r.val e) * (scale * ∑ r : Fin 16, at2 a1 d r.val * at2 b1 r.val e)

/-- The dense layer's result at (b, s, e): the full contraction over the 4096 features, plus the bias. -/
def dense (x : FVec Ideal ⟨3, ![8, 2048, 4096]⟩ .f32) (W : FVec Ideal ⟨2, ![4096, 4096]⟩ .f32)
    (bias : FVec Ideal ⟨1, ![4096]⟩ .f32) (a0 : FVec Ideal ⟨2, ![4096, 16]⟩ .f32)
    (b0 : FVec Ideal ⟨2, ![16, 4096]⟩ .f32) (a1 : FVec Ideal ⟨2, ![4096, 16]⟩ .f32)
    (b1 : FVec Ideal ⟨2, ![16, 4096]⟩ .f32) : FVec Ideal ⟨3, ![8, 2048, 4096]⟩ .f32 :=
  fun i => (∑ d : Fin 4096, x (ix3 (i 0) (i 1) d) * kern W a0 b0 a1 b1 d.val (i 2).val) + bias (ix1 (i 2))

/-- One tile's contribution to entry (R, E) of the flattened [16384, 4096] product: the 512 features of tile `k`. -/
def tile (X : FVec Ideal ⟨2, ![16384, 4096]⟩ .f32) (K : ℕ → ℕ → EReal) (R E k : ℕ) : EReal :=
  ∑ d : Fin 512, at2 X R (512 * k + d.val) * K (512 * k + d.val) E

/-- The sum over 4096 consecutive naturals is the sum over 8 tiles of the sums over each tile's 512. -/
theorem sum_tiles {M : Type*} [AddCommMonoid M] (f : ℕ → M) :
    ∑ k ∈ Finset.range 8, ∑ d : Fin 512, f (512 * k + d.val) = ∑ c : Fin 4096, f c.val := by
  rw [← Fin.sum_univ_eq_sum_range (fun k => ∑ d : Fin 512, f (512 * k + d.val)) 8]
  rw [← Fintype.sum_prod_type (f := fun p : Fin 8 × Fin 512 => f (512 * p.1.val + p.2.val))]
  rw [← Equiv.sum_comp (finProdFinEquiv (m := 8) (n := 512)) (fun c : Fin (8 * 512) => f c.val)]
  refine Finset.sum_congr rfl fun p _ => congrArg f ?_
  simp [finProdFinEquiv]
  omega

end Cert.LoHa

end
-- ==== Proof.Blocks.lean ====
/-
  Where each block sits in its array.  The grid point number t (0 ≤ t < 512) has coordinates
  (i, j, k) = (t / 32, t / 8 mod 4, t mod 8): row tile i of the 16384 flattened rows, column tile j of the 4096
  output features, reduction tile k of the 4096 input features.  At point t the body sees
    rows 1024·i … of x against features 512·k …,   rows 512·k … of W, a0, a1 (all 16 rank columns of the factors),
    columns 1024·j … of W, b0, b1 and of the bias row.
  Each lemma reads a block's entry as the array's entry at those natural-number coordinates; the point's addend
  ∑_d x·(W + (σ·a0·b0)(σ·a1·b1)) over the tile's 512 features is then the specification's `tile` at (i, j, k).
-/
import proofs.«135458_j56581899157528_1_alg».proof.Proof.Gen.KernelIdeal.Frame
import Idealize.ShloMosaic.Lib.Pipeline.Value
import Idealize.ShloMosaic.Lib.Tactic
import proofs.«135458_j56581899157528_1_alg».proof.Proof.Spec
set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen

variable {F : FTy → Type} [FloatOps F]

open Cert.LoHa Idealize.ShloMosaic.ValueIdx
open scoped BigOperators

variable (m : (ℓ : Loc nD τ sig) → Buf (Elt Ideal) ℓ)

/-! ## The index maps, decided once over the 512 points -/

theorem idx0 : ∀ t : Fin cfg0.N, win0_0.index t 0 = t.val / 32 ∧ win0_0.index t 1 = t.val % 8 :=
  (by decide +kernel : ∀ t : Fin grid0.N, win0_0.index t 0 = t.val / 32 ∧ win0_0.index t 1 = t.val % 8)
theorem idx1 : ∀ t : Fin cfg0.N, win0_1.index t 0 = t.val % 8 ∧ win0_1.index t 1 = t.val / 8 % 4 :=
  (by decide +kernel : ∀ t : Fin grid0.N, win0_1.index t 0 = t.val % 8 ∧ win0_1.index t 1 = t.val / 8 % 4)
theorem idx2 : ∀ t : Fin cfg0.N, win0_2.index t 0 = t.val % 8 ∧ win0_2.index t 1 = 0 :=
  (by decide +kernel : ∀ t : Fin grid0.N, win0_2.index t 0 = t.val % 8 ∧ win0_2.index t 1 = 0)
theorem idx3 : ∀ t : Fin cfg0.N, win0_3.index t 0 = 0 ∧ win0_3.index t 1 = t.val / 8 % 4 :=
  (by decide +kernel : ∀ t : Fin grid0.N, win0_3.index t 0 = 0 ∧ win0_3.index t 1 = t.val / 8 % 4)
theorem idx4 : ∀ t : Fin cfg0.N, win0_4.index t 0 = t.val % 8 ∧ win0_4.index t 1 = 0 :=
  (by decide +kernel : ∀ t : Fin grid0.N, win0_4.index t 0 = t.val % 8 ∧ win0_4.index t 1 = 0)
theorem idx5 : ∀ t : Fin cfg0.N, win0_5.index t 0 = 0 ∧ win0_5.index t 1 = t.val / 8 % 4 :=
  (by decide +kernel : ∀ t : Fin grid0.N, win0_5.index t 0 = 0 ∧ win0_5.index t 1 = t.val / 8 % 4)
theorem idx6 : ∀ t : Fin cfg0.N, win0_6.index t 0 = 0 ∧ win0_6.index t 1 = t.val / 8 % 4 :=
  (by decide +kernel : ∀ t : Fin grid0.N, win0_6.index t 0 = 0 ∧ win0_6.index t 1 = t.val / 8 % 4)
theorem idx7 : ∀ t : Fin cfg0.N, win0_7.index t 0 = t.val / 32 ∧ win0_7.index t 1 = t.val / 8 % 4 :=
  (by decide +kernel : ∀ t : Fin grid0.N, win0_7.index t 0 = t.val / 32 ∧ win0_7.index t 1 = t.val / 8 % 4)

/-! ## The arrays the region finds, and the blocks, at their literal types -/

/-- x flattened to [16384, 4096]. -/
abbrev xarr (c : Dev nD) : Vec Ideal S16384x4096 .f32 := V m c main_v0
/-- W. -/
abbrev warr (c : Dev nD) : Vec Ideal S4096x4096 .f32 := V m c main_arg1
/-- a0, b0, a1, b1. -/
abbrev a0arr (c : Dev nD) : Vec Ideal S4096x16 .f32 := V m c main_arg3
abbrev b0arr (c : Dev nD) : Vec Ideal S16x4096 .f32 := V m c main_arg4
abbrev a1arr (c : Dev nD) : Vec Ideal S4096x16 .f32 := V m c main_arg5
abbrev b1arr (c : Dev nD) : Vec Ideal S16x4096 .f32 := V m c main_arg6
/-- The bias as a [1, 4096] row. -/
abbrev biasarr (c : Dev nD) : Vec Ideal S1x4096 .f32 := V m c main_v1

abbrev xblk (c : Dev nD) (t : Fin cfg0.N) : Vec Ideal S1024x512 .f32 := iblk m c 0 t
abbrev wblk (c : Dev nD) (t : Fin cfg0.N) : Vec Ideal S512x1024 .f32 := iblk m c 1 t
abbrev a0blk (c : Dev nD) (t : Fin cfg0.N) : Vec Ideal S512x16 .f32 := iblk m c 2 t
abbrev b0blk (c : Dev nD) (t : Fin cfg0.N) : Vec Ideal S16x1024 .f32 := iblk m c 3 t
abbrev a1blk (c : Dev nD) (t : Fin cfg0.N) : Vec Ideal S512x16 .f32 := iblk m c 4 t
abbrev b1blk (c : Dev nD) (t : Fin cfg0.N) : Vec Ideal S16x1024 .f32 := iblk m c 5 t
abbrev biasblk (c : Dev nD) (t : Fin cfg0.N) : Vec Ideal S1x1024 .f32 := iblk m c 6 t

/-! ## A block's entry is its array's entry -/

theorem xblk_apply (c : Dev nD) (t : Fin cfg0.N) (a : Fin 1024) (b : Fin 512) :
    xblk m c t (ix2 a b) = at2 (xarr m c) (1024 * (t.val / 32) + a.val) (512 * (t.val % 8) + b.val) := by
  have hi := idx0 t
  have hN : t.val < 512 := lt_of_lt_of_eq t.isLt N_0
  rw [at2_of_lt _ _ _ (by omega) (by omega)]
  unfold xblk xarr iblk
  rw [View.read_apply]
  show V m c main_v0 _ = V m c main_v0 _
  congr 1
  funext e
  apply Fin.ext
  match e with
  | ⟨0, _⟩ => show win0_0.index t 0 * 1024 + 1 * a.val = _; rw [hi.1]; show _ = 1024 * (t.val / 32) + a.val; omega
  | ⟨1, _⟩ => show win0_0.index t 1 * 512 + 1 * b.val = _; rw [hi.2]; show _ = 512 * (t.val % 8) + b.val; omega

theorem wblk_apply (c : Dev nD) (t : Fin cfg0.N) (a : Fin 512) (b : Fin 1024) :
    wblk m c t (ix2 a b) = at2 (warr m c) (512 * (t.val % 8) + a.val) (1024 * (t.val / 8 % 4) + b.val) := by
  have hi := idx1 t
  have hN : t.val < 512 := lt_of_lt_of_eq t.isLt N_0
  rw [at2_of_lt _ _ _ (by omega) (by omega)]
  unfold wblk warr iblk
  rw [View.read_apply]
  show V m c main_arg1 _ = V m c main_arg1 _
  congr 1
  funext e
  apply Fin.ext
  match e with
  | ⟨0, _⟩ => show win0_1.index t 0 * 512 + 1 * a.val = _; rw [hi.1]; show _ = 512 * (t.val % 8) + a.val; omega
  | ⟨1, _⟩ => show win0_1.index t 1 * 1024 + 1 * b.val = _; rw [hi.2]; show _ = 1024 * (t.val / 8 % 4) + b.val; omega

theorem a0blk_apply (c : Dev nD) (t : Fin cfg0.N) (a : Fin 512) (b : Fin 16) :
    a0blk m c t (ix2 a b) = at2 (a0arr m c) (512 * (t.val % 8) + a.val) (b.val) := by
  have hi := idx2 t
  have hN : t.val < 512 := lt_of_lt_of_eq t.isLt N_0
  rw [at2_of_lt _ _ _ (by omega) (by omega)]
  unfold a0blk a0arr iblk
  rw [View.read_apply]
  show V m c main_arg3 _ = V m c main_arg3 _
  congr 1
  funext e
  apply Fin.ext
  match e with
  | ⟨0, _⟩ => show win0_2.index t 0 * 512 + 1 * a.val = _; rw [hi.1]; show _ = 512 * (t.val % 8) + a.val; omega
  | ⟨1, _⟩ => show win0_2.index t 1 * 16 + 1 * b.val = _; rw [hi.2]; show _ = b.val; omega

theorem b0blk_apply (c : Dev nD) (t : Fin cfg0.N) (a : Fin 16) (b : Fin 1024) :
    b0blk m c t (ix2 a b) = at2 (b0arr m c) (a.val) (1024 * (t.val / 8 % 4) + b.val) := by
  have hi := idx3 t
  have hN : t.val < 512 := lt_of_lt_of_eq t.isLt N_0
  rw [at2_of_lt _ _ _ (by omega) (by omega)]
  unfold b0blk b0arr iblk
  rw [View.read_apply]
  show V m c main_arg4 _ = V m c main_arg4 _
  congr 1
  funext e
  apply Fin.ext
  match e with
  | ⟨0, _⟩ => show win0_3.index t 0 * 16 + 1 * a.val = _; rw [hi.1]; show _ = a.val; omega
  | ⟨1, _⟩ => show win0_3.index t 1 * 1024 + 1 * b.val = _; rw [hi.2]; show _ = 1024 * (t.val / 8 % 4) + b.val; omega

theorem a1blk_apply (c : Dev nD) (t : Fin cfg0.N) (a : Fin 512) (b : Fin 16) :
    a1blk m c t (ix2 a b) = at2 (a1arr m c) (512 * (t.val % 8) + a.val) (b.val) := by
  have hi := idx4 t
  have hN : t.val < 512 := lt_of_lt_of_eq t.isLt N_0
  rw [at2_of_lt _ _ _ (by omega) (by omega)]
  unfold a1blk a1arr iblk
  rw [View.read_apply]
  show V m c main_arg5 _ = V m c main_arg5 _
  congr 1
  funext e
  apply Fin.ext
  match e with
  | ⟨0, _⟩ => show win0_4.index t 0 * 512 + 1 * a.val = _; rw [hi.1]; show _ = 512 * (t.val % 8) + a.val; omega
  | ⟨1, _⟩ => show win0_4.index t 1 * 16 + 1 * b.val = _; rw [hi.2]; show _ = b.val; omega

theorem b1blk_apply (c : Dev nD) (t : Fin cfg0.N) (a : Fin 16) (b : Fin 1024) :
    b1blk m c t (ix2 a b) = at2 (b1arr m c) (a.val) (1024 * (t.val / 8 % 4) + b.val) := by
  have hi := idx5 t
  have hN : t.val < 512 := lt_of_lt_of_eq t.isLt N_0
  rw [at2_of_lt _ _ _ (by omega) (by omega)]
  unfold b1blk b1arr iblk
  rw [View.read_apply]
  show V m c main_arg6 _ = V m c main_arg6 _
  congr 1
  funext e
  apply Fin.ext
  match e with
  | ⟨0, _⟩ => show win0_5.index t 0 * 16 + 1 * a.val = _; rw [hi.1]; show _ = a.val; omega
  | ⟨1, _⟩ => show win0_5.index t 1 * 1024 + 1 * b.val = _; rw [hi.2]; show _ = 1024 * (t.val / 8 % 4) + b.val; omega

theorem biasblk_apply (c : Dev nD) (t : Fin cfg0.N) (a : Fin 1) (b : Fin 1024) :
    biasblk m c t (ix2 a b) = at2 (biasarr m c) (a.val) (1024 * (t.val / 8 % 4) + b.val) := by
  have hi := idx6 t
  have hN : t.val < 512 := lt_of_lt_of_eq t.isLt N_0
  rw [at2_of_lt _ _ _ (by omega) (by omega)]
  unfold biasblk biasarr iblk
  rw [View.read_apply]
  show V m c main_v1 _ = V m c main_v1 _
  congr 1
  funext e
  apply Fin.ext
  match e with
  | ⟨0, _⟩ => show win0_6.index t 0 * 1 + 1 * a.val = _; rw [hi.1]; show _ = a.val; omega
  | ⟨1, _⟩ => show win0_6.index t 1 * 1024 + 1 * b.val = _; rw [hi.2]; show _ = 1024 * (t.val / 8 % 4) + b.val; omega

/-! ## The point's addend is the specification's tile -/

/-- The adapted weight, over the arrays the region finds. -/
abbrev K (c : Dev nD) : ℕ → ℕ → EReal := kern (warr m c) (a0arr m c) (b0arr m c) (a1arr m c) (b1arr m c)

/-- What point t adds to entry (p, q) of its accumulator: tile (t mod 8) of the contraction, for row
    1024·(t / 32) + p and column 1024·(t / 8 mod 4) + q. -/
theorem addend_eq (c : Dev nD) (t : Fin cfg0.N) (p q : Fin 1024) :
    (∑ d : Fin 512, xblk m c t (ix2 p d) * (wblk m c t (ix2 d q)
        + (scale * ∑ r : Fin 16, a0blk m c t (ix2 d r) * b0blk m c t (ix2 r q))
          * (scale * ∑ r : Fin 16, a1blk m c t (ix2 d r) * b1blk m c t (ix2 r q))))
      = tile (xarr m c) (K m c) (1024 * (t.val / 32) + p.val) (1024 * (t.val / 8 % 4) + q.val) (t.val % 8) := by
  unfold tile K kern
  simp only [xblk_apply, wblk_apply, a0blk_apply, b0blk_apply, a1blk_apply, b1blk_apply]

end Cert.KernelIdeal.Blocks
end
-- ==== Proof.Pieces.lean ====
/-
  What one grid point leaves behind, as values.  The body keeps a 1024x1024 accumulator in a scratch buffer.
  At a point whose reduction coordinate is 0 it first stores the zero block; at every point it then stores
  (accumulator + x-block · (W-block + (s·a0-block·b0-block) ∘ (s·a1-block·b1-block))), which is the payload
  `k0_pay2` of the blocks and the accumulator read back; at a point whose reduction coordinate is 7 it
  finally stores (accumulator + bias row, broadcast down the rows) into the output block: `k0_pay3`.
  Each lemma below reads the stores of one control case back as that payload of the case's input blocks
  (and, where the case does not reset it, of the accumulator the point before left).
-/
import proofs.«135458_j56581899157528_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The offsets of every access of the body: the origin. -/
theorem hz : (![0, 0] : Fin 2 → Nat) = fun _ => 0 := funext fun a => by fin_cases a <;> rfl

/-- A middle point (reduction coordinate neither 0 nor 7): the accumulator `xs0` found there becomes
    `xs0 + x0 · (x1 + (s·x2·x3) ∘ (s·x4·x5))`. -/
theorem scratch_B (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S512x16 .f32) (harg5 : arg5.IsWhole) (arg6 : Memref sig .tc .vmem S16x1024 .f32) (harg6 : arg6.IsWhole) (arg7 : Memref sig .tc .vmem S512x16 .f32) (harg7 : arg7.IsWhole) (arg8 : Memref sig .tc .vmem S16x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : ¬cond0_0 i) (hc1 : ¬cond0_1 i)
    (x0 : Vec F S1024x512 .f32) (x1 : Vec F S512x1024 .f32) (x2 : Vec F S512x16 .f32) (x3 : Vec F S16x1024 .f32) (x4 : Vec F S512x16 .f32) (x5 : Vec F S16x1024 .f32) (x6 : Vec F S1x1024 .f32) (xs0 : Vec F S1024x1024 .f32) :
    sout0_B_0 c i arg3 harg3 arg4 harg4 arg5 harg5 arg6 harg6 arg7 harg7 arg8 harg8 arg9 harg9 arg10 harg10 arg11 harg11 hc0 hc1 x0 x1 x2 x3 x4 x5 x6 xs0 = k0_pay2 x2 x3 x4 x5 x1 x0 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 hc0 hc1 x0 x1 x2 x3 x4 x5 x6 xs0)]
  unfold kernelRun0_B
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, View.ld_unit_zero (S := S1024x512) hz, View.ld_unit_zero (S := S512x1024) hz, View.ld_unit_zero (S := S512x16) hz, View.ld_unit_zero (S := S16x1024) hz, View.ld_unit_zero (S := S1x1024) hz, View.ld_unit_zero (S := S1024x1024) hz]

/-- A first point (reduction coordinate 0): the accumulator is reset to the zero block `k0_pay1` and the
    update reads that zero block back, so it ends at `0 + x0 · (x1 + (s·x2·x3) ∘ (s·x4·x5))`. -/
theorem scratch_A (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S512x16 .f32) (harg5 : arg5.IsWhole) (arg6 : Memref sig .tc .vmem S16x1024 .f32) (harg6 : arg6.IsWhole) (arg7 : Memref sig .tc .vmem S512x16 .f32) (harg7 : arg7.IsWhole) (arg8 : Memref sig .tc .vmem S16x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : cond0_0 i) (hc1 : ¬cond0_1 i)
    (x0 : Vec F S1024x512 .f32) (x1 : Vec F S512x1024 .f32) (x2 : Vec F S512x16 .f32) (x3 : Vec F S16x1024 .f32) (x4 : Vec F S512x16 .f32) (x5 : Vec F S16x1024 .f32) (x6 : Vec F S1x1024 .f32) :
    sout0_A_0 c i arg3 harg3 arg4 harg4 arg5 harg5 arg6 harg6 arg7 harg7 arg8 harg8 arg9 harg9 arg10 harg10 arg11 harg11 hc0 hc1 x0 x1 x2 x3 x4 x5 x6 = k0_pay2 x2 x3 x4 x5 x1 x0 (k0_pay1 (F := F)) := by
  unfold sout0_A_0
  rw [View.read_writes_eq_canon _ _ _ (scover0_A_0 c i arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, harg5.read_unread, harg6.read_unread, harg7.read_unread, harg8.read_unread, harg9.read_unread, harg10.read_unread, harg11.read_unread, View.ld_unit_zero (S := S1024x512) hz, View.ld_unit_zero (S := S512x1024) hz, View.ld_unit_zero (S := S512x16) hz, View.ld_unit_zero (S := S16x1024) hz, View.ld_unit_zero (S := S1x1024) hz, View.ld_unit_zero (S := S1024x1024) hz]

/-- A last point (reduction coordinate 7): the accumulator is updated as at a middle point, -/
theorem scratch_C (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S512x16 .f32) (harg5 : arg5.IsWhole) (arg6 : Memref sig .tc .vmem S16x1024 .f32) (harg6 : arg6.IsWhole) (arg7 : Memref sig .tc .vmem S512x16 .f32) (harg7 : arg7.IsWhole) (arg8 : Memref sig .tc .vmem S16x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : ¬cond0_0 i) (hc1 : cond0_1 i)
    (x0 : Vec F S1024x512 .f32) (x1 : Vec F S512x1024 .f32) (x2 : Vec F S512x16 .f32) (x3 : Vec F S16x1024 .f32) (x4 : Vec F S512x16 .f32) (x5 : Vec F S16x1024 .f32) (x6 : Vec F S1x1024 .f32) (xs0 : Vec F S1024x1024 .f32) :
    sout0_C_0 c i arg3 harg3 arg4 harg4 arg5 harg5 arg6 harg6 arg7 harg7 arg8 harg8 arg9 harg9 arg10 harg10 arg11 harg11 hc0 hc1 x0 x1 x2 x3 x4 x5 x6 xs0 = k0_pay2 x2 x3 x4 x5 x1 x0 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, View.ld_unit_zero (S := S1024x512) hz, View.ld_unit_zero (S := S512x1024) hz, View.ld_unit_zero (S := S512x16) hz, View.ld_unit_zero (S := S16x1024) hz, View.ld_unit_zero (S := S1x1024) hz, View.ld_unit_zero (S := S1024x1024) hz]

/-- and the output block is the updated accumulator plus the bias row `x6` broadcast down the rows. -/
theorem out_C (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S512x16 .f32) (harg5 : arg5.IsWhole) (arg6 : Memref sig .tc .vmem S16x1024 .f32) (harg6 : arg6.IsWhole) (arg7 : Memref sig .tc .vmem S512x16 .f32) (harg7 : arg7.IsWhole) (arg8 : Memref sig .tc .vmem S16x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : ¬cond0_0 i) (hc1 : cond0_1 i)
    (x0 : Vec F S1024x512 .f32) (x1 : Vec F S512x1024 .f32) (x2 : Vec F S512x16 .f32) (x3 : Vec F S16x1024 .f32) (x4 : Vec F S512x16 .f32) (x5 : Vec F S16x1024 .f32) (x6 : Vec F S1x1024 .f32) (xs0 : Vec F S1024x1024 .f32) :
    out0_C_7 c i arg3 harg3 arg4 harg4 arg5 harg5 arg6 harg6 arg7 harg7 arg8 harg8 arg9 harg9 arg10 harg10 arg11 harg11 hc0 hc1 x0 x1 x2 x3 x4 x5 x6 xs0 = k0_pay3 (k0_pay2 x2 x3 x4 x5 x1 x0 xs0) x6 := by
  unfold out0_C_7
  rw [View.read_writes_eq_canon _ _ _ (cover0_C_7 c i arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, View.ld_unit_zero (S := S1024x512) hz, View.ld_unit_zero (S := S512x1024) hz, View.ld_unit_zero (S := S512x16) hz, View.ld_unit_zero (S := S16x1024) hz, View.ld_unit_zero (S := S1x1024) hz, View.ld_unit_zero (S := S1024x1024) hz, View.readCov_unit_zero (S := S1024x1024) _ hz]

end Cert.KernelIdeal.Pieces
end
-- ==== Proof.Payload.lean ====
/-
  The body's three stored values read at one entry, on the extended reals.
  The zero block is 0 everywhere; the accumulator update adds to the old accumulator, at (p, q), the sum over the
  tile's 512 features d of  x[p, d] · (w[d, q] + (σ · ∑_r a0[d, r] · b0[r, q]) · (σ · ∑_r a1[d, r] · b1[r, q]))  (a matrix
  product into a zero accumulator is the plain sum; narrowing a float format is the identity on the extended
  reals); the output block adds the bias row's entry of the column.
-/
import proofs.«135458_j56581899157528_1_alg».proof.Proof.Gen.KernelIdeal.Skeleton
import proofs.«135458_j56581899157528_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators
open Idealize.ShloMosaic Idealize.ShloMosaic.ValueIdx

namespace Cert.KernelIdeal.Payload

open Cert.KernelIdeal Cert.KernelIdeal.Gen

/-! ### The two contractions' operand indices, axis by axis -/

theorem lhs_low_0 (i : S512x1024.Idx) (q : dot_S512x16_S16x1024_S512x1024_1_0_0_1_n_n.contr.Idx) :
    (dot_S512x16_S16x1024_S512x1024_1_0_0_1_n_n.lhsIdx i q 0).val = (i 0).val := by
  unfold DotDims.lhsIdx
  rw [dif_neg (show ¬(0 : Fin S512x16.rank) ∈ dot_S512x16_S16x1024_S512x1024_1_0_0_1_n_n.lhsBatch by decide), dif_pos (show (0 : Fin S512x16.rank) ∈ dot_S512x16_S16x1024_S512x1024_1_0_0_1_n_n.lhsNonContracting by decide)]
  rfl
theorem lhs_low_1 (i : S512x1024.Idx) (q : dot_S512x16_S16x1024_S512x1024_1_0_0_1_n_n.contr.Idx) :
    (dot_S512x16_S16x1024_S512x1024_1_0_0_1_n_n.lhsIdx i q 1).val = (q ⟨0, by decide⟩).val :=
  dot_S512x16_S16x1024_S512x1024_1_0_0_1_n_n.lhsIdx_val_of_single rfl i q
theorem rhs_low_0 (i : S512x1024.Idx) (q : dot_S512x16_S16x1024_S512x1024_1_0_0_1_n_n.contr.Idx) :
    (dot_S512x16_S16x1024_S512x1024_1_0_0_1_n_n.rhsIdx i q 0).val = (q ⟨0, by decide⟩).val :=
  dot_S512x16_S16x1024_S512x1024_1_0_0_1_n_n.rhsIdx_val_of_single rfl i q
theorem rhs_low_1 (i : S512x1024.Idx) (q : dot_S512x16_S16x1024_S512x1024_1_0_0_1_n_n.contr.Idx) :
    (dot_S512x16_S16x1024_S512x1024_1_0_0_1_n_n.rhsIdx i q 1).val = (i 1).val := by
  unfold DotDims.rhsIdx
  rw [dif_neg (show ¬(1 : Fin S16x1024.rank) ∈ dot_S512x16_S16x1024_S512x1024_1_0_0_1_n_n.rhsBatch by decide), dif_pos (show (1 : Fin S16x1024.rank) ∈ dot_S512x16_S16x1024_S512x1024_1_0_0_1_n_n.rhsNonContracting by decide)]
  rfl

theorem lhs_big_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_big_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhs_big_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhs_big_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- A rank-16 product into the zero accumulator, at entry (d, q): the sum over the 16 ranks. -/
theorem lowrank_apply (prec : Option ContractPrecision) (a : FVec Ideal S512x16 .f32) (b : FVec Ideal S16x1024 .f32)
    (d : Fin 512) (q : Fin 1024) :
    matmul (F := Ideal) dot_S512x16_S16x1024_S512x1024_1_0_0_1_n_n prec a b
        (constant (F := Ideal) S512x1024 .f32 0x00000000#32) (ix2 d q)
      = ∑ r : Fin 16, a (ix2 d r) * b (ix2 r q) := by
  refine (Ideal.matmul_constant_zero_apply dot_S512x16_S16x1024_S512x1024_1_0_0_1_n_n prec a b (ix2 d q)).trans ?_
  rw [← Equiv.sum_comp (ValueIdx.contrEquiv1 dot_S512x16_S16x1024_S512x1024_1_0_0_1_n_n 16 rfl rfl).symm]
  refine Finset.sum_congr rfl fun k _ => ?_
  have hk := ValueIdx.contrEquiv1_symm_val dot_S512x16_S16x1024_S512x1024_1_0_0_1_n_n 16 rfl rfl k
  have el : dot_S512x16_S16x1024_S512x1024_1_0_0_1_n_n.lhsIdx (ix2 d q) ((ValueIdx.contrEquiv1 dot_S512x16_S16x1024_S512x1024_1_0_0_1_n_n 16 rfl rfl).symm k) = ix2 d k := funext fun a => Fin.ext (by
    match a with
    | ⟨0, _⟩ => exact lhs_low_0 _ _
    | ⟨1, _⟩ => exact (lhs_low_1 _ _).trans hk)
  have er : dot_S512x16_S16x1024_S512x1024_1_0_0_1_n_n.rhsIdx (ix2 d q) ((ValueIdx.contrEquiv1 dot_S512x16_S16x1024_S512x1024_1_0_0_1_n_n 16 rfl rfl).symm k) = ix2 k q := funext fun a => Fin.ext (by
    match a with
    | ⟨0, _⟩ => exact (rhs_low_0 _ _).trans hk
    | ⟨1, _⟩ => exact rhs_low_1 _ _)
  rw [el, er]

/-- The tile's product into the zero accumulator, at entry (p, q): the sum over the tile's 512 features. -/
theorem tileprod_apply {φ₁ φ₂ : FTy} (prec : Option ContractPrecision) (a : FVec Ideal S1024x512 φ₁) (b : FVec Ideal S512x1024 φ₂)
    (p q : Fin 1024) :
    matmul (F := Ideal) dot_S1024x512_S512x1024_S1024x1024_1_0_0_1_n_n prec a b
        (constant (F := Ideal) S1024x1024 .f32 0x00000000#32) (ix2 p q)
      = ∑ d : Fin 512, a (ix2 p d) * b (ix2 d q) := by
  refine (Ideal.matmul_constant_zero_apply dot_S1024x512_S512x1024_S1024x1024_1_0_0_1_n_n prec a b (ix2 p q)).trans ?_
  rw [← Equiv.sum_comp (ValueIdx.contrEquiv1 dot_S1024x512_S512x1024_S1024x1024_1_0_0_1_n_n 512 rfl rfl).symm]
  refine Finset.sum_congr rfl fun k _ => ?_
  have hk := ValueIdx.contrEquiv1_symm_val dot_S1024x512_S512x1024_S1024x1024_1_0_0_1_n_n 512 rfl rfl k
  have el : dot_S1024x512_S512x1024_S1024x1024_1_0_0_1_n_n.lhsIdx (ix2 p q) ((ValueIdx.contrEquiv1 dot_S1024x512_S512x1024_S1024x1024_1_0_0_1_n_n 512 rfl rfl).symm k) = ix2 p k := funext fun a => Fin.ext (by
    match a with
    | ⟨0, _⟩ => exact lhs_big_0 _ _
    | ⟨1, _⟩ => exact (lhs_big_1 _ _).trans hk)
  have er : dot_S1024x512_S512x1024_S1024x1024_1_0_0_1_n_n.rhsIdx (ix2 p q) ((ValueIdx.contrEquiv1 dot_S1024x512_S512x1024_S1024x1024_1_0_0_1_n_n 512 rfl rfl).symm k) = ix2 k q := funext fun a => Fin.ext (by
    match a with
    | ⟨0, _⟩ => exact (rhs_big_0 _ _).trans hk
    | ⟨1, _⟩ => exact rhs_big_1 _ _)
  rw [el, er]

/-- The reset's block is zero at every entry. -/
theorem zero_apply (p q : Fin 1024) : k0_pay1 (F := Ideal) (ix2 p q) = 0 := by
  unfold k0_pay1
  rw [shapeCast_self]
  exact Ideal.ofBits_zero_f32

/-- The accumulator update at entry (p, q): the old accumulator plus the tile's partial product. -/
theorem update_apply (v3 : Vec Ideal S512x16 .f32) (v4 : Vec Ideal S16x1024 .f32) (v8 : Vec Ideal S512x16 .f32)
    (v9 : Vec Ideal S16x1024 .f32) (v13 : Vec Ideal S512x1024 .f32) (v16 : Vec Ideal S1024x512 .f32)
    (v20 : Vec Ideal S1024x1024 .f32) (p q : Fin 1024) :
    k0_pay2 (F := Ideal) v3 v4 v8 v9 v13 v16 v20 (ix2 p q)
      = v20 (ix2 p q) + ∑ d : Fin 512, v16 (ix2 p d) * (v13 (ix2 d q)
          + (Cert.LoHa.scale * ∑ r : Fin 16, v3 (ix2 d r) * v4 (ix2 r q))
            * (Cert.LoHa.scale * ∑ r : Fin 16, v8 (ix2 d r) * v9 (ix2 r q))) := by
  unfold k0_pay2
  rw [shapeCast_self, shapeCast_self]
  refine congrArg (v20 (ix2 p q) + ·) ?_
  refine (tileprod_apply none _ _ p q).trans ?_
  refine Finset.sum_congr rfl fun d _ => ?_
  refine congrArg (v16 (ix2 p d) * ·) ?_
  refine congrArg (v13 (ix2 d q) + ·) ?_
  exact congrArg₂ (fun x y => (Cert.LoHa.scale * x) * (Cert.LoHa.scale * y))
    (lowrank_apply (some .fp32) v3 v4 d q) (lowrank_apply (some .fp32) v8 v9 d q)

/-- The output block at entry (p, q): the accumulator plus the bias row's entry of column q. -/
theorem bias_apply (v29 : Vec Ideal S1024x1024 .f32) (v30 : Vec Ideal S1x1024 .f32) (p q : Fin 1024) :
    k0_pay3 (F := Ideal) v29 v30 (ix2 p q) = v29 (ix2 p q) + v30 (ix2 (0 : Fin 1) q) := by
  unfold k0_pay3
  rw [shapeCast_self]
  refine congrArg (v29 (ix2 p q) + ·) ?_
  refine broadcastTo_apply v30 _ (ix2 p q) (ix2 (0 : Fin 1) q) fun a => ?_
  match a with
  | ⟨0, _⟩ => show 0 = if (1 : Nat) = 1 then 0 else _; rw [if_pos rfl]
  | ⟨1, _⟩ => show q.val = if (1024 : Nat) = 1 then 0 else q.val; rw [if_neg (by decide)]

end Cert.KernelIdeal.Payload

end
-- ==== Proof.Accum.lean ====
/-
  The running total.  Along the 8 consecutive points of one output tile (reduction coordinate k = 0 … 7) the
  accumulator starts at zero and gains one tile's partial product per point, so after point n its entry (p, q) is
  the sum of tiles 0 … n mod 8 of the contraction for row 1024·(n / 32) + p and column 1024·(n / 8 mod 4) + q; at
  the last point of the 8 the output block is that total plus the bias entry of the column.
-/
import proofs.«135458_j56581899157528_1_alg».proof.Proof.Gen.KernelIdeal.Frame
import Idealize.ShloMosaic.Lib.Pipeline.Value
import Idealize.ShloMosaic.Lib.Tactic
import proofs.«135458_j56581899157528_1_alg».proof.Proof.Spec
import proofs.«135458_j56581899157528_1_alg».proof.Proof.Pieces
import proofs.«135458_j56581899157528_1_alg».proof.Proof.Payload
import proofs.«135458_j56581899157528_1_alg».proof.Proof.Blocks
set_option maxRecDepth 16384

noncomputable section

open Idealize.ShloMosaic Idealize.ShloMosaic.TcCoe Idealize.SL.Sem
open Idealize.ShloMosaic.Pipeline (Dat)

namespace Cert.KernelIdeal.Accum

open Cert.KernelIdeal Cert.KernelIdeal.Gen

variable {F : FTy → Type} [FloatOps F]

open Cert.LoHa Idealize.ShloMosaic.ValueIdx
open Cert.KernelIdeal.Pieces Cert.KernelIdeal.Payload Cert.KernelIdeal.Blocks
open scoped BigOperators

variable (m : (ℓ : Loc nD τ sig) → Buf (Elt Ideal) ℓ)

/-- What point t adds at entry (p, q). -/
abbrev addend (c : Dev nD) (t : Fin cfg0.N) (p q : Fin 1024) : EReal :=
  tile (xarr m c) (K m c) (1024 * (t.val / 32) + p.val) (1024 * (t.val / 8 % 4) + q.val) (t.val % 8)

/-- At a first point (t mod 8 = 0) the accumulator is reset, so it ends at that point's addend alone. -/
theorem step_first (c : Dev nD) (t : Fin cfg0.N) (h0 : t.val % 8 = 0) (p q : Fin 1024) :
    (outsAt0 m c t.val t.isLt).2 (ix2 p q) = addend m c t p q := by
  have h1 : ¬t.val % 8 = 7 := by omega
  rw [outsAt0_A m c t h0 h1]
  dsimp only
  refine (congrFun (scratch_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (xblk m c t) (wblk m c t) (a0blk m c t) (b0blk m c t) (a1blk m c t) (b1blk m c t) (biasblk m c t)) (ix2 p q)).trans ?_
  refine (update_apply _ _ _ _ _ _ _ p q).trans ?_
  rw [zero_apply, zero_add]
  exact addend_eq m c t p q

/-- At every other point the accumulator the point before left gains this point's addend. -/
theorem step_next (c : Dev nD) (t : Fin cfg0.N) (h0 : ¬t.val % 8 = 0) (p q : Fin 1024) :
    (outsAt0 m c t.val t.isLt).2 (ix2 p q) = (outsAt0 m c (t.val - 1) (Nat.lt_of_le_of_lt (Nat.sub_le _ _) t.isLt)).2 (ix2 p q) + addend m c t p q := by
  by_cases h1 : t.val % 8 = 7
  · rw [outsAt0_C m c t h0 h1]
    dsimp only
    refine (congrFun (scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (xblk m c t) (wblk m c t) (a0blk m c t) (b0blk m c t) (a1blk m c t) (b1blk m c t) (biasblk m c t) (outsAt0 m c (t.val - 1) (Nat.lt_of_le_of_lt (Nat.sub_le _ _) t.isLt)).2) (ix2 p q)).trans ?_
    refine (update_apply _ _ _ _ _ _ _ p q).trans ?_
    exact congrArg (_ + ·) (addend_eq m c t p q)
  · rw [outsAt0_B m c t h0 h1]
    dsimp only
    refine (congrFun (scratch_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (xblk m c t) (wblk m c t) (a0blk m c t) (b0blk m c t) (a1blk m c t) (b1blk m c t) (biasblk m c t) (outsAt0 m c (t.val - 1) (Nat.lt_of_le_of_lt (Nat.sub_le _ _) t.isLt)).2) (ix2 p q)).trans ?_
    refine (update_apply _ _ _ _ _ _ _ p q).trans ?_
    exact congrArg (_ + ·) (addend_eq m c t p q)

/-- At a last point (t mod 8 = 7) the output block is the accumulator it leaves plus the bias entry. -/
theorem out_last (c : Dev nD) (t : Fin cfg0.N) (h1 : t.val % 8 = 7) (p q : Fin 1024) :
    (outsAt0 m c t.val t.isLt).1 (ix2 p q) = (outsAt0 m c t.val t.isLt).2 (ix2 p q) + biasblk m c t (ix2 (0 : Fin 1) q) := by
  have h0 : ¬t.val % 8 = 0 := by omega
  rw [outsAt0_C m c t h0 h1]
  dsimp only
  rw [out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (xblk m c t) (wblk m c t) (a0blk m c t) (b0blk m c t) (a1blk m c t) (b1blk m c t) (biasblk m c t) (outsAt0 m c (t.val - 1) (Nat.lt_of_le_of_lt (Nat.sub_le _ _) t.isLt)).2,
    scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (xblk m c t) (wblk m c t) (a0blk m c t) (b0blk m c t) (a1blk m c t) (b1blk m c t) (biasblk m c t) (outsAt0 m c (t.val - 1) (Nat.lt_of_le_of_lt (Nat.sub_le _ _) t.isLt)).2]
  exact bias_apply _ _ p q

/-- The accumulator after point n: tiles 0 … n mod 8 of the contraction, summed. -/
theorem acc_closed (c : Dev nD) : ∀ (n : ℕ) (h : n < cfg0.N) (p q : Fin 1024),
    (outsAt0 m c n h).2 (ix2 p q)
      = ∑ k ∈ Finset.range (n % 8 + 1), tile (xarr m c) (K m c) (1024 * (n / 32) + p.val) (1024 * (n / 8 % 4) + q.val) k
  | 0, h, p, q => by
    refine (step_first m c ⟨0, h⟩ rfl p q).trans ?_
    show tile _ _ _ _ (0 % 8) = _
    simp
  | n + 1, h, p, q => by
    by_cases h0 : (n + 1) % 8 = 0
    · refine (step_first m c ⟨n + 1, h⟩ h0 p q).trans ?_
      show tile _ _ _ _ ((n + 1) % 8) = _
      rw [h0]
      simp
    · refine (step_next m c ⟨n + 1, h⟩ h0 p q).trans ?_
      show (outsAt0 m c n _).2 (ix2 p q) + tile _ _ (1024 * ((n + 1) / 32) + p.val) (1024 * ((n + 1) / 8 % 4) + q.val) ((n + 1) % 8) = _
      rw [acc_closed c n _ p q]
      have e1 : (n + 1) % 8 = n % 8 + 1 := by omega
      have e2 : (n + 1) / 32 = n / 32 := by omega
      have e3 : (n + 1) / 8 % 4 = n / 8 % 4 := by omega
      rw [e1, e2, e3, Finset.sum_range_succ _ (n % 8 + 1)]

end Cert.KernelIdeal.Accum
end
-- ==== Proof.Arrays.lean ====
/-
  The arrays the region finds, in terms of the program's arguments.  Before the region the host only re-lays
  two arguments: x [8, 2048, 4096] is flattened to [16384, 4096] (row R of the flat array is (R / 2048, R mod 2048) of x)
  and the bias [4096] becomes a [1, 4096] row.  W and the four low-rank factors are untouched.
-/
import proofs.«135458_j56581899157528_1_alg».proof.Proof.Gen.KernelIdeal.Frame
import Idealize.ShloMosaic.Lib.Pipeline.Value
import Idealize.ShloMosaic.Lib.Tactic
import proofs.«135458_j56581899157528_1_alg».proof.Proof.Spec
import proofs.«135458_j56581899157528_1_alg».proof.Proof.Blocks
import Idealize.ShloMosaic.Lib.StableHlo.Run
set_option maxRecDepth 16384

noncomputable section

open Idealize.ShloMosaic Idealize.ShloMosaic.TcCoe Idealize.SL.Sem
open Idealize.ShloMosaic.Pipeline (Dat)

namespace Cert.KernelIdeal.Arrays

open Cert.KernelIdeal Cert.KernelIdeal.Gen

variable {F : FTy → Type} [FloatOps F]

open Cert.LoHa Idealize.ShloMosaic.ValueIdx
open Cert.KernelIdeal.Blocks
open scoped BigOperators

variable (m : (ℓ : Loc nD τ sig) → Buf (Elt Ideal) ℓ)

/-- The flattened x is the row-major re-laying of the argument x. -/
theorem xarr_eq (c : Dev nD) :
    (xarr m c : S16384x4096.Idx → EReal)
      = shapeCast S16384x4096 (m ((c : Thread nD τ).loc main_arg0)) shapeCasts_S8x2048x4096_S16384x4096 := by
  show StableHlo.after hostOps0 (fun b => m (c, b)) (Proc.devRef .tc main_v0) = _
  after_results
  rfl

/-- The bias row is the row-major re-laying of the argument bias. -/
theorem biasarr_eq (c : Dev nD) :
    (biasarr m c : S1x4096.Idx → EReal)
      = shapeCast S1x4096 (m ((c : Thread nD τ).loc main_arg2)) shapeCasts_S4096_S1x4096 := by
  show StableHlo.after hostOps0 (fun b => m (c, b)) (Proc.devRef .tc main_v1) = _
  after_results
  rfl

/-- The flattened x at (R, D) is x at (R / 2048, R mod 2048, D). -/
theorem xarr_at (c : Dev nD) (R D : ℕ) (hR : R < 16384) (hD : D < 4096) :
    at2 (xarr m c) R D
      = (m ((c : Thread nD τ).loc main_arg0) : Vec Ideal S8x2048x4096 .f32) (ix3 ⟨R / 2048, by omega⟩ ⟨R % 2048, Nat.mod_lt _ (by decide)⟩ ⟨D, hD⟩) := by
  rw [at2_of_lt _ _ _ hR hD, xarr_eq]
  refine shapeCast_apply _ _ _ _ ?_
  show ((⟨3, ![8, 2048, 4096]⟩ : Shape).rowMajor _).val = ((⟨2, ![16384, 4096]⟩ : Shape).rowMajor _).val
  rw [Shape.rowMajor_val_three, Shape.rowMajor_val_two]
  show (R / 2048 * 2048 + R % 2048) * 4096 + D = R * 4096 + D
  have h := Nat.div_add_mod R 2048
  omega

/-- The bias row at (0, E) is the bias at E. -/
theorem biasarr_at (c : Dev nD) (E : ℕ) (hE : E < 4096) :
    at2 (biasarr m c) 0 E = (m ((c : Thread nD τ).loc main_arg2) : Vec Ideal S4096 .f32) (ix1 ⟨E, hE⟩) := by
  rw [at2_of_lt _ _ _ Nat.one_pos hE, biasarr_eq]
  refine shapeCast_apply _ _ _ _ ?_
  show ((⟨1, ![4096]⟩ : Shape).rowMajor _).val = ((⟨2, ![1, 4096]⟩ : Shape).rowMajor _).val
  rw [Shape.rowMajor_val_one, Shape.rowMajor_val_two]
  show E = 0 * 4096 + E
  omega

/-- W and the factors are the arguments themselves. -/
theorem warr_eq (c : Dev nD) : warr m c = m ((c : Thread nD τ).loc main_arg1) := V_main_arg1 m c
theorem a0arr_eq (c : Dev nD) : a0arr m c = m ((c : Thread nD τ).loc main_arg3) := V_main_arg3 m c
theorem b0arr_eq (c : Dev nD) : b0arr m c = m ((c : Thread nD τ).loc main_arg4) := V_main_arg4 m c
theorem a1arr_eq (c : Dev nD) : a1arr m c = m ((c : Thread nD τ).loc main_arg5) := V_main_arg5 m c
theorem b1arr_eq (c : Dev nD) : b1arr m c = m ((c : Thread nD τ).loc main_arg6) := V_main_arg6 m c

end Cert.KernelIdeal.Arrays
end
-- ==== Proof.Final.lean ====
/-
  The result array.  The output block of row tile i and column tile j is written back once, after the last of its
  8 points, holding the full running total plus the bias; the 16 × 4 output blocks tile the flattened [16384, 4096]
  product, so that array ends at  (∑ over the 8 tiles of the tile sums) + bias  everywhere, and the host's final
  reshape lays it out as [8, 2048, 4096].  Summing the 8 tiles of 512 is summing all 4096 features (`sum_tiles`),
  so the result is the specification's dense layer of the seven arguments.
-/
import proofs.«135458_j56581899157528_1_alg».proof.Proof.Gen.KernelIdeal.Frame
import Idealize.ShloMosaic.Lib.Pipeline.Value
import Idealize.ShloMosaic.Lib.Tactic
import proofs.«135458_j56581899157528_1_alg».proof.Proof.Spec
import proofs.«135458_j56581899157528_1_alg».proof.Proof.Blocks
import proofs.«135458_j56581899157528_1_alg».proof.Proof.Accum
import proofs.«135458_j56581899157528_1_alg».proof.Proof.Arrays
import Idealize.ShloMosaic.Lib.StableHlo.Run
set_option maxRecDepth 16384

noncomputable section

open Idealize.ShloMosaic Idealize.ShloMosaic.TcCoe Idealize.SL.Sem
open Idealize.ShloMosaic.Pipeline (Dat)

namespace Cert.KernelIdeal.Final

open Cert.KernelIdeal Cert.KernelIdeal.Gen

variable {F : FTy → Type} [FloatOps F]

open Cert.LoHa Idealize.ShloMosaic.ValueIdx
open Cert.KernelIdeal.Blocks Cert.KernelIdeal.Accum Cert.KernelIdeal.Arrays
open scoped BigOperators

variable (m : (ℓ : Loc nD τ sig) → Buf (Elt Ideal) ℓ) (ρ : Dev nD → PrngReg)

/-- The flattened product with its bias: entry (R, E) is the sum of the 8 tiles for (R, E) plus the bias row's E. -/
def out2 (c : Dev nD) : Vec Ideal S16384x4096 .f32 := fun i =>
  (∑ k ∈ Finset.range 8, tile (xarr m c) (K m c) (i 0).val (i 1).val k) + at2 (biasarr m c) 0 (i 1).val

/-- What a last point (t mod 8 = 7) writes back is its block of `out2`. -/
theorem flushed_eq (c : Dev nD) (t : Fin cfg0.N) (hf : (cfg0.win 7).flush t = true) :
    (dats m 0 c).flushed 7 t = ((cfg0.win 7).blk t).view.read (Elt Ideal) (out2 m c) := by
  have h7 : t.val % 8 = 7 := (flush0_7 t).mp hf
  have hi := idx7 t
  have hN : t.val < 512 := lt_of_lt_of_eq t.isLt N_0
  show (cfg0.win 7).cut (grid0.coords t) ((dats m 0 c).after 7 t) = _
  rw [after0_7]
  funext j
  obtain ⟨p, q, rfl⟩ : ∃ (p : Fin 1024) (q : Fin 1024), j = ix2 p q := ⟨j 0, j 1, eq_ix2 j⟩
  rw [View.read_apply]
  show (outsAt0 m c t.val t.isLt).1 (ix2 p q) = out2 m c (((cfg0.win 7).blk t).view.emb (ix2 p q))
  rw [out_last m c t h7 p q, acc_closed m c t.val t.isLt p q, biasblk_apply]
  unfold out2
  have e0 : ((((cfg0.win 7).blk t).view.emb (ix2 p q)) 0).val = 1024 * (t.val / 32) + p.val := by
    show win0_7.index t 0 * 1024 + 1 * p.val = _
    rw [hi.1]; omega
  have e1 : ((((cfg0.win 7).blk t).view.emb (ix2 p q)) 1).val = 1024 * (t.val / 8 % 4) + q.val := by
    show win0_7.index t 1 * 1024 + 1 * q.val = _
    rw [hi.2]; omega
  rw [e0, e1, h7]
  rfl

/-- An index of the flattened array is in point t's output block iff each coordinate is in the block's range. -/
theorem mem_blk (t : Fin cfg0.N) (i : S16384x4096.Idx) :
    i ∈ ((cfg0.win 7).blk t).view.set ↔ ∀ a : Fin 2, win0_7.index t a * S1024x1024.size a ≤ (i a).val ∧ (i a).val < win0_7.index t a * S1024x1024.size a + S1024x1024.size a := by
  show i ∈ ((View.whole main_v2).slice (win0_7.rect t)).set ↔ _
  rw [View.set_slice_whole, Rect.mem_set_unit]
  exact Iff.rfl

/-- Every entry (R, E) lies in the block written back by the last point of row tile R / 1024 and column tile E / 1024. -/
theorem cover (i : S16384x4096.Idx) :
    ∃ t : Fin cfg0.N, (cfg0.win 7).flush t = true ∧ i ∈ ((cfg0.win 7).blk t).view.set := by
  have hi0 : (i 0).val < 16384 := (i 0).isLt
  have hi1 : (i 1).val < 4096 := (i 1).isLt
  have hN : cfg0.N = 512 := N_0
  have hlt : 32 * ((i 0).val / 1024) + 8 * ((i 1).val / 1024) + 7 < cfg0.N := by rw [hN]; omega
  have hi := idx7 ⟨32 * ((i 0).val / 1024) + 8 * ((i 1).val / 1024) + 7, hlt⟩
  refine ⟨⟨32 * ((i 0).val / 1024) + 8 * ((i 1).val / 1024) + 7, hlt⟩, (flush0_7 _).mpr (by show (32 * ((i 0).val / 1024) + 8 * ((i 1).val / 1024) + 7) % 8 = 7; omega), ?_⟩
  rw [mem_blk]
  intro a
  match a with
  | ⟨0, _⟩ =>
    show win0_7.index _ 0 * 1024 ≤ (i 0).val ∧ (i 0).val < win0_7.index _ 0 * 1024 + 1024
    rw [hi.1]
    show (32 * ((i 0).val / 1024) + 8 * ((i 1).val / 1024) + 7) / 32 * 1024 ≤ (i 0).val ∧ (i 0).val < (32 * ((i 0).val / 1024) + 8 * ((i 1).val / 1024) + 7) / 32 * 1024 + 1024
    omega
  | ⟨1, _⟩ =>
    show win0_7.index _ 1 * 1024 ≤ (i 1).val ∧ (i 1).val < win0_7.index _ 1 * 1024 + 1024
    rw [hi.2]
    show (32 * ((i 0).val / 1024) + 8 * ((i 1).val / 1024) + 7) / 8 % 4 * 1024 ≤ (i 1).val ∧ (i 1).val < (32 * ((i 0).val / 1024) + 8 * ((i 1).val / 1024) + 7) / 8 % 4 * 1024 + 1024
    omega

/-- So the flattened result array ends at `out2`. -/
theorem final (c : Dev nD) : (dats m 0 c).arrAt 7 cfg0.N = out2 m c :=
  (dats m 0 c).arrAt_eq_of_cover 7 (out2 m c) (flushed_eq m c) cover

/-- The host's last line reshapes the flattened result. -/
theorem tail_eq (c : Dev nD) :
    Pipeline.afterTail₀ cfgs (dats m) 0 (V0 m) [hostOps1] c main_v3
      = shapeCast S8x2048x4096 (out2 m c) shapeCasts_S16384x4096_S8x2048x4096 := by
  have hw : Pipeline.withArrays (cfgs 0).spec c (V0 m c) (fun w => (dats m 0 c).arrAt w (cfgs 0).N) (Proc.devRef .tc main_v2) = out2 m c :=
    (Pipeline.withArrays_arr spec0 launch0.win.arr_inj c _ _ 7).trans (final m c)
  unfold Pipeline.afterTail₀
  show StableHlo.after hostOps1 _ (Proc.devRef .tc main_v3) = _
  after_results
  show shapeCast S8x2048x4096 (Pipeline.withArrays (cfgs 0).spec c (V0 m c) (fun w => (dats m 0 c).arrAt w (cfgs 0).N) (Proc.devRef .tc main_v2)) shapeCasts_S16384x4096_S8x2048x4096 = _
  rw [hw]

/-- The kernel's result: the flattened product with its bias, laid out as [8, 2048, 4096]. -/
abbrev result (c : Dev nD) : Buf (Elt Ideal) ((c.tc : Thread nD τ).loc main_v3) :=
  shapeCast S8x2048x4096 (out2 m c) shapeCasts_S16384x4096_S8x2048x4096

/-- The run, read: the result array at `result`, the seven arguments unchanged. -/
theorem run : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c)))⟩)
    (run_main m ρ)

/-- The result is the specification's dense layer of the seven arguments: entry (b, s, e) of the reshaped array is
    entry (2048·b + s, e) of the flattened one, whose 8 tile sums together run over all 4096 features, and row
    2048·b + s of the flattened x is row (b, s) of x. -/
theorem result_eq (c : Dev nD) :
    result m c = dense (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  funext i
  obtain ⟨b, s, e, rfl⟩ : ∃ (b : Fin 8) (s : Fin 2048) (e : Fin 4096), i = ix3 b s e := ⟨i 0, i 1, i 2, eq_ix3 i⟩
  have hR : 2048 * b.val + s.val < 16384 := by omega
  unfold result
  rw [shapeCast_apply (out2 m c) shapeCasts_S16384x4096_S8x2048x4096 (ix3 b s e) (ix2 ⟨2048 * b.val + s.val, hR⟩ e)
    (by rw [Shape.rowMajor_val_two, Shape.rowMajor_val_three]
        show (2048 * b.val + s.val) * 4096 + e.val = (b.val * 2048 + s.val) * 4096 + e.val
        omega)]
  unfold out2 dense
  show (∑ k ∈ Finset.range 8, tile (xarr m c) (K m c) (2048 * b.val + s.val) e.val k) + at2 (biasarr m c) 0 e.val = _
  rw [biasarr_at m c e.val e.isLt]
  refine congrArg₂ (· + ·) ?_ rfl
  unfold tile
  rw [sum_tiles (fun d => at2 (xarr m c) (2048 * b.val + s.val) d * K m c d e.val)]
  refine Finset.sum_congr rfl fun d _ => ?_
  rw [xarr_at m c _ _ hR d.isLt]
  unfold K
  rw [warr_eq, a0arr_eq, b0arr_eq, a1arr_eq, b1arr_eq]
  refine congrArg₂ (· * ·) (congrArg _ ?_) rfl
  funext a
  match a with
  | ⟨0, _⟩ => exact Fin.ext (by show (2048 * b.val + s.val) / 2048 = b.val; omega)
  | ⟨1, _⟩ => exact Fin.ext (by show (2048 * b.val + s.val) % 2048 = s.val; omega)
  | ⟨2, _⟩ => rfl

end Cert.KernelIdeal.Final
end
-- ==== Proof.RefSide.lean ====
/-
  The reference program's result is the dense layer of the specification: read one operation at a time, its
  last stage at (b, s, e) is the contraction over all 4096 features of x[b, s, d] times the adapted weight's entry
  (d, e) — the base weight plus the product of the two scaled rank-16 products — plus the bias entry e.
-/
import proofs.«135458_j56581899157528_1_alg».proof.Proof.Gen.ReferenceIdeal.Run
import proofs.«135458_j56581899157528_1_alg».proof.Proof.Gen.ReferenceIdeal.Read
import proofs.«135458_j56581899157528_1_alg».proof.Proof.Spec

noncomputable section

open scoped BigOperators
open Idealize.ShloMosaic Idealize.ShloMosaic.ValueIdx

namespace Cert.ReferenceIdeal.RefValue

open Cert.ReferenceIdeal Cert.ReferenceIdeal.Gen Cert.ReferenceIdeal.Read

/-- The left operand of the big contraction is read at (b, s, k). -/
private theorem lidx8_eq (i : S8x2048x4096.Idx) (k : Fin 4096) :
    lidx_main_v8 i k = ix3 (i 0) (i 1) k := by
  funext a
  match a with
  | ⟨0, _⟩ => rfl
  | ⟨1, _⟩ => rfl
  | ⟨2, _⟩ => rfl

/-- The right operand of the big contraction is read at (k, e). -/
private theorem ridx8_eq (i : S8x2048x4096.Idx) (k : Fin 4096) :
    ridx_main_v8 i k = ix2 k (i 2) := by
  funext a
  match a with
  | ⟨0, _⟩ => rfl
  | ⟨1, _⟩ => rfl

/-- The first rank-16 product reads its left factor at (d, r). -/
private theorem lidx0_eq (d e : Fin 4096) (r : Fin 16) :
    lidx_main_v0 (ix2 d e) r = ix2 d r := by
  funext a
  match a with
  | ⟨0, _⟩ => rfl
  | ⟨1, _⟩ => rfl

/-- The first rank-16 product reads its right factor at (r, e). -/
private theorem ridx0_eq (d e : Fin 4096) (r : Fin 16) :
    ridx_main_v0 (ix2 d e) r = ix2 r e := by
  funext a
  match a with
  | ⟨0, _⟩ => rfl
  | ⟨1, _⟩ => rfl

/-- The second rank-16 product reads its left factor at (d, r). -/
private theorem lidx3_eq (d e : Fin 4096) (r : Fin 16) :
    lidx_main_v3 (ix2 d e) r = ix2 d r := by
  funext a
  match a with
  | ⟨0, _⟩ => rfl
  | ⟨1, _⟩ => rfl

/-- The second rank-16 product reads its right factor at (r, e). -/
private theorem ridx3_eq (d e : Fin 4096) (r : Fin 16) :
    ridx_main_v3 (ix2 d e) r = ix2 r e := by
  funext a
  match a with
  | ⟨0, _⟩ => rfl
  | ⟨1, _⟩ => rfl

/-- The two broadcasts of the bias read it at e. -/
private theorem bias_idx_eq (i : S8x2048x4096.Idx) :
    idx_main_v9 (idx_main_v10 i) = ix1 (i 2) := by
  funext a
  match a with
  | ⟨0, _⟩ => rfl

/-- Entry (d, e) of the reference's adapted weight is the specification's. -/
private theorem v7_eq (x1 : (⟨S4096x4096, .f32⟩ : BufTy).Contents (Elt Ideal))
    (x3 : (⟨S4096x16, .f32⟩ : BufTy).Contents (Elt Ideal)) (x4 : (⟨S16x4096, .f32⟩ : BufTy).Contents (Elt Ideal))
    (x5 : (⟨S4096x16, .f32⟩ : BufTy).Contents (Elt Ideal)) (x6 : (⟨S16x4096, .f32⟩ : BufTy).Contents (Elt Ideal))
    (d e : Fin 4096) :
    val_main_v7 (F := Ideal) x1 x3 x4 x5 x6 (ix2 d e) = Cert.LoHa.kern x1 x3 x4 x5 x6 d.val e.val := by
  rw [val_main_v7_apply, val_main_v6_apply, val_main_v2_apply, val_main_v5_apply, val_main_v1_apply,
    val_main_v4_apply, val_main_cst_apply, val_main_cst_0_apply, val_main_v0_apply, val_main_v3_apply,
    Ideal.addf_def, Ideal.mulf_def, Ideal.mulf_def, Ideal.mulf_def, Ideal.ofBits_def]
  unfold Cert.LoHa.kern
  simp only [lidx0_eq, ridx0_eq, lidx3_eq, ridx3_eq, Cert.LoHa.at2_ix2]

/-- The reference's last stage is the specification's dense layer of the seven arguments. -/
theorem ref_eq (x0 : (⟨S8x2048x4096, .f32⟩ : BufTy).Contents (Elt Ideal)) (x1 : (⟨S4096x4096, .f32⟩ : BufTy).Contents (Elt Ideal))
    (x2 : (⟨S4096, .f32⟩ : BufTy).Contents (Elt Ideal)) (x3 : (⟨S4096x16, .f32⟩ : BufTy).Contents (Elt Ideal))
    (x4 : (⟨S16x4096, .f32⟩ : BufTy).Contents (Elt Ideal)) (x5 : (⟨S4096x16, .f32⟩ : BufTy).Contents (Elt Ideal))
    (x6 : (⟨S16x4096, .f32⟩ : BufTy).Contents (Elt Ideal)) :
    val_main_v11 (F := Ideal) x0 x1 x2 x3 x4 x5 x6 = Cert.LoHa.dense x0 x1 x2 x3 x4 x5 x6 := by
  funext i
  rw [val_main_v11_apply, val_main_v8_apply, val_main_v10_apply, val_main_v9_apply, bias_idx_eq, Ideal.addf_def]
  unfold Cert.LoHa.dense
  congr 1
  refine Finset.sum_congr rfl fun k _ => ?_
  rw [lidx8_eq, ridx8_eq]
  exact congrArg (fun t => x0 (ix3 (i 0) (i 1) k) * t) (v7_eq x1 x3 x4 x5 x6 k (i 2))

end Cert.ReferenceIdeal.RefValue

end
-- ==== Proof.lean ====
/-
  A dense layer with a low-rank Hadamard adapter, out = x · (W + (σ·a0·b0) ∘ (σ·a1·b1)) + bias with σ = 1/16,
  computed two ways over the extended reals.

  The reference contracts the 4096 input features of x against the adapted weight in one product.  The kernel
  flattens x to [16384, 4096] and walks a 16 × 4 × 8 grid: for row tile i and column tile j it rebuilds the adapted
  weight's (512 × 1024) tile of reduction step k from W and the four rank-16 factors, multiplies the (1024 × 512)
  tile of x into it, and adds the product to an accumulator that is zeroed at k = 0 and, with the bias row added,
  written out after k = 7.  Narrowing to a shorter float format is the identity on the extended reals, and a matrix
  product into a zero accumulator is the plain sum, so entry (R, E) of the kernel's flattened result is
  (∑_{k<8} ∑_{d<512} x[R, 512k + d] · K[512k + d, E]) + bias[E], the reference's is (∑_{d<4096} x[R, d] · K[d, E]) + bias[E],
  and the two sums are one by commutativity and associativity of addition alone (no finiteness is used).

  Modules: Spec (the dense layer, a tile's sum, the regrouping of 4096 into 8 × 512), Payload (the body's stored
  values at an entry), Pieces (what each control case of the body leaves), Blocks (where a block sits in its array),
  Accum (the running total, by induction along the grid), Arrays (the host's re-layouts before the region),
  Final (the result array, the host's final reshape, the run), RefSide (the reference is the dense layer).
-/
import proofs.«135458_j56581899157528_1_alg».proof.Defs
import proofs.«135458_j56581899157528_1_alg».proof.Proof.Gen.Kernel
import proofs.«135458_j56581899157528_1_alg».proof.Proof.Gen.Kernel.Skeleton
import proofs.«135458_j56581899157528_1_alg».proof.Proof.Gen.Kernel.Launch
import proofs.«135458_j56581899157528_1_alg».proof.Proof.Gen.Kernel.Points
import proofs.«135458_j56581899157528_1_alg».proof.Proof.Gen.Kernel.Frame
import proofs.«135458_j56581899157528_1_alg».proof.Proof.Gen.KernelIdeal
import proofs.«135458_j56581899157528_1_alg».proof.Proof.Gen.KernelIdeal.Skeleton
import proofs.«135458_j56581899157528_1_alg».proof.Proof.Gen.KernelIdeal.Launch
import proofs.«135458_j56581899157528_1_alg».proof.Proof.Gen.KernelIdeal.Points
import proofs.«135458_j56581899157528_1_alg».proof.Proof.Gen.KernelIdeal.Frame
import proofs.«135458_j56581899157528_1_alg».proof.Proof.Gen.ReferenceIdeal
import proofs.«135458_j56581899157528_1_alg».proof.Proof.Gen.ReferenceIdeal.Run
import proofs.«135458_j56581899157528_1_alg».proof.Proof.Gen.ReferenceIdeal.Read
import proofs.«135458_j56581899157528_1_alg».proof.Proof.Gen.Pre_finite_inputs
import proofs.«135458_j56581899157528_1_alg».proof.Proof.Final
import proofs.«135458_j56581899157528_1_alg».proof.Proof.RefSide
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- Both programs end at the dense layer of the same seven arguments. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v11_eq, Cert.ReferenceIdeal.RefValue.ref_eq]
  show _ = Cert.KernelIdeal.Final.result m c
  rw [Cert.KernelIdeal.Final.result_eq, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
